-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x32x32x256 : Shape := ⟨5, ![4, 32, 32, 32, 256]⟩
abbrev S512x256 : Shape := ⟨2, ![512, 256]⟩
abbrev S512 : Shape := ⟨1, ![512]⟩
abbrev S_ : Shape := ⟨0, ![]⟩

class Facts : Prop where
  bcast_S_S4x32x32x32x256 : S_.BroadcastsInDim S4x32x32x32x256 (![] : Fin 0 → Fin S4x32x32x32x256.rank)
  reducesTo_S4x32x32x32x256_S_d0_1_2_3_4 : S4x32x32x32x256.ReducesTo [0, 1, 2, 3, 4] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S4x32x32x32x256 .f32) (main_arg1 : FVec F S512x256 .f32) (main_arg2 : FVec F S512 .f32) : IVec S_ 1 :=
  let main_v0 : FVec F S4x32x32x32x256 .f32 := Host.absf main_arg0
  let main_cst : FVec F S_ .f32 := constant S_ .f32 0x7F800000#32
  let main_v1 : FVec F S4x32x32x32x256 .f32 := broadcastInDim S4x32x32x32x256 ![] bcast_S_S4x32x32x32x256 main_cst
  let main_v2 : IVec S4x32x32x32x256 1 := cmpf .olt main_v0 main_v1
  let main_c : IVec S_ 1 := constantI S_ 1 1#1
  let main_v3 : IVec S_ 1 := (fun x v => Host.reduce IntOp.andi x v reducesTo_S4x32x32x32x256_S_d0_1_2_3_4 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S4x32x32x32x256 : Shape := ⟨5, ![4, 32, 32, 32, 256]⟩
abbrev S512x256 : Shape := ⟨2, ![512, 256]⟩
abbrev S512 : Shape := ⟨1, ![512]⟩
abbrev S131072x256 : Shape := ⟨2, ![131072, 256]⟩
abbrev S256x512 : Shape := ⟨2, ![256, 512]⟩
abbrev S1x512 : Shape := ⟨2, ![1, 512]⟩
abbrev S131072x512 : Shape := ⟨2, ![131072, 512]⟩
abbrev S2048x256 : Shape := ⟨2, ![2048, 256]⟩
abbrev S2048x512 : Shape := ⟨2, ![2048, 512]⟩
abbrev S4x32x32x32x512 : Shape := ⟨5, ![4, 32, 32, 32, 512]⟩

abbrev nBuf : Space → Nat
  | .hbm => 10
  | .vmem => 6
  | .smem => 0
  | _ => 0

abbrev bufTy : (tb : Table) → Fin (tcTables nBuf tb) → BufTy
  | .hbm, ⟨0, _⟩ => ⟨S4x32x32x32x256, .f32⟩
  | .hbm, ⟨1, _⟩ => ⟨S512x256, .f32⟩
  | .hbm, ⟨2, _⟩ => ⟨S512, .f32⟩
  | .hbm, ⟨3, _⟩ => ⟨S131072x256, .f32⟩
  | .hbm, ⟨4, _⟩ => ⟨S131072x256, .bf16⟩
  | .hbm, ⟨5, _⟩ => ⟨S256x512, .f32⟩
  | .hbm, ⟨6, _⟩ => ⟨S256x512, .bf16⟩
  | .hbm, ⟨7, _⟩ => ⟨S1x512, .f32⟩
  | .hbm, ⟨8, _⟩ => ⟨S131072x512, .f32⟩
  | .hbm, ⟨9, _⟩ => ⟨S4x32x32x32x512, .f32⟩
  | .local _ .vmem, ⟨0, _⟩ => ⟨S2048x256, .bf16⟩
  | .local _ .vmem, ⟨1, _⟩ => ⟨S2048x256, .bf16⟩
  | .local _ .vmem, ⟨2, _⟩ => ⟨S256x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S4x32x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x32x32x32x256_S131072x256 : S4x32x32x32x256.ShapeCasts S131072x256
  bitsLt_bf16_f32 : FTy.bits .bf16 < FTy.bits .f32
  transposes_S512x256_S256x512_1_0 : S512x256.Transposes [1, 0] S256x512
  shapeCasts_S512_S1x512 : S512.ShapeCasts S1x512
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S131072x512_S4x32x32x32x512 : S131072x512.ShapeCasts S4x32x32x32x512
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .bf16 = 32 ∨ (Rect.block (s := S131072x256) S2048x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x32x32x32x256 : Shape := ⟨5, ![4, 32, 32, 32, 256]⟩
abbrev S512x256 : Shape := ⟨2, ![512, 256]⟩
abbrev S512 : Shape := ⟨1, ![512]⟩
abbrev S4x32x32x32x512 : Shape := ⟨5, ![4, 32, 32, 32, 512]⟩
abbrev S1x1x1x1x512 : Shape := ⟨5, ![1, 1, 1, 1, 512]⟩

abbrev nBuf : Space → Nat
  | .hbm => 7
  | .vmem => 0
  | .smem => 0
  | _ => 0

abbrev bufTy : (tb : Table) → Fin (tcTables nBuf tb) → BufTy
  | .hbm, ⟨0, _⟩ => ⟨S4x32x32x32x256, .f32⟩
  | .hbm, ⟨1, _⟩ => ⟨S512x256, .f32⟩
  | .hbm, ⟨2, _⟩ => ⟨S512, .f32⟩
  | .hbm, ⟨3, _⟩ => ⟨S4x32x32x32x512, .f32⟩
  | .hbm, ⟨4, _⟩ => ⟨S1x1x1x1x512, .f32⟩
  | .hbm, ⟨5, _⟩ => ⟨S4x32x32x32x512, .f32⟩
  | .hbm, ⟨6, _⟩ => ⟨S4x32x32x32x512, .f32⟩
  | _, _ => ⟨S4x32x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S512_S1x1x1x1x512_4 : S512.BroadcastsInDim S1x1x1x1x512 (![4] : Fin 1 → Fin S1x1x1x1x512.rank)
  bcast_S1x1x1x1x512_S4x32x32x32x512_0_1_2_3_4 : S1x1x1x1x512.BroadcastsInDim S4x32x32x32x512 (![0, 1, 2, 3, 4] : Fin 5 → Fin S4x32x32x32x512.rank)
  dot_S4x32x32x32x256_S512x256_S4x32x32x32x512_4_1_0123_0_n_n_wf : DotDims.WF S4x32x32x32x256 S512x256 S4x32x32x32x512 [4] [1] [0, 1, 2, 3] [0] [] []

variable [Facts₀]

def dot_S4x32x32x32x256_S512x256_S4x32x32x32x512_4_1_0123_0_n_n : DotDims S4x32x32x32x256 S512x256 S4x32x32x32x512 where
  lhsContracting := [4]
  rhsContracting := [1]
  lhsNonContracting := [0, 1, 2, 3]
  rhsNonContracting := [0]
  lhsBatch := []
  rhsBatch := []
  wf := dot_S4x32x32x32x256_S512x256_S4x32x32x32x512_4_1_0123_0_n_n_wf

class Facts : Prop extends Facts₀ where

variable [Facts]
-- ==== Proof.Affine.lean ====
/-
  The affine map of a linear layer, written once for each of the two layouts it is met in.

  Five-axis form: for an input x with axes (b, a, d, e, f), a weight W with axes (o, f) and a bias β with axis (o), the
  result at (b, a, d, e, o) is

      ∑ f, x (b, a, d, e, f) · W (o, f)  +  β (o).

  Matrix form: for X with axes (r, f), Wt with axes (f, o) and a one-row B, the result at (r, o) is

      ∑ f, X (r, f) · Wt (f, o)  +  B (0, o).

  When row r of X is the fibre of x over (b, a, d, e), Wt (f, o) = W (o, f) and B (0, o) = β (o), the matrix form at
  (r, o) is the five-axis form at (b, a, d, e, o): term by term the same products, summed over the same index, plus the
  same bias entry. No law of the extended reals is needed.
-/
import Idealize.ShloMosaic.PureOps.Ideal
import Idealize.ShloMosaic.Lib.ValueIdx

noncomputable section

open scoped BigOperators

namespace Cert.Affine

open Idealize.ShloMosaic Idealize.ShloMosaic.ValueIdx

/-- One entry of the linear layer on the five-axis input: the fibre of `x` over (b, a, d, e) against row `o` of `W`,
    plus entry `o` of the bias. -/
def layerAt (x : FVec Ideal ⟨5, ![4, 32, 32, 32, 256]⟩ .f32) (W : FVec Ideal ⟨2, ![512, 256]⟩ .f32)
    (β : FVec Ideal ⟨1, ![512]⟩ .f32) (b : Fin 4) (a d e : Fin 32) (o : Fin 512) : EReal :=
  (∑ f : Fin 256, x (ix5 b a d e f) * W (ix2 o f)) + β (ix1 o)

/-- The linear layer on the five-axis input: contract the last axis of `x` with the last axis of `W`, add the bias along
    the new last axis. -/
def layer (x : FVec Ideal ⟨5, ![4, 32, 32, 32, 256]⟩ .f32) (W : FVec Ideal ⟨2, ![512, 256]⟩ .f32)
    (β : FVec Ideal ⟨1, ![512]⟩ .f32) : FVec Ideal ⟨5, ![4, 32, 32, 32, 512]⟩ .f32 :=
  fun i => layerAt x W β (i 0) (i 1) (i 2) (i 3) (i 4)

/-- One entry of the same map on matrices: row `r` of `X` against column `o` of `Wt`, plus entry `o` of the one row `B`. -/
def rowsAt (X : FVec Ideal ⟨2, ![131072, 256]⟩ .bf16) (Wt : FVec Ideal ⟨2, ![256, 512]⟩ .bf16)
    (B : FVec Ideal ⟨2, ![1, 512]⟩ .f32) (r : Fin 131072) (o : Fin 512) : EReal :=
  (∑ f : Fin 256, X (ix2 r f) * Wt (ix2 f o)) + B (ix2 (⟨0, Nat.one_pos⟩ : Fin 1) o)

/-- The map on matrices: rows of `X` times the columns of `Wt`, plus the one row `B`. -/
def rows (X : FVec Ideal ⟨2, ![131072, 256]⟩ .bf16) (Wt : FVec Ideal ⟨2, ![256, 512]⟩ .bf16)
    (B : FVec Ideal ⟨2, ![1, 512]⟩ .f32) : FVec Ideal ⟨2, ![131072, 512]⟩ .f32 :=
  fun j => rowsAt X Wt B (j 0) (j 1)

/-- The matrix form at row `r` and column `o` is the five-axis form at (b, a, d, e, o), when row `r` of `X` is the fibre
    of `x` over (b, a, d, e), `Wt` is `W` with its axes exchanged and `B`'s row is `β`. -/
theorem rowsAt_eq_layerAt (x : FVec Ideal ⟨5, ![4, 32, 32, 32, 256]⟩ .f32) (W : FVec Ideal ⟨2, ![512, 256]⟩ .f32)
    (β : FVec Ideal ⟨1, ![512]⟩ .f32) (X : FVec Ideal ⟨2, ![131072, 256]⟩ .bf16) (Wt : FVec Ideal ⟨2, ![256, 512]⟩ .bf16)
    (B : FVec Ideal ⟨2, ![1, 512]⟩ .f32) (b : Fin 4) (a d e : Fin 32) (o : Fin 512) (r : Fin 131072)
    (hX : ∀ f : Fin 256, X (ix2 r f) = x (ix5 b a d e f))
    (hW : ∀ f : Fin 256, Wt (ix2 f o) = W (ix2 o f))
    (hB : B (ix2 (⟨0, Nat.one_pos⟩ : Fin 1) o) = β (ix1 o)) :
    rowsAt X Wt B r o = layerAt x W β b a d e o := by
  unfold rowsAt layerAt
  rw [hB]
  exact congrArg (· + β (ix1 o)) (Finset.sum_congr rfl fun f _ => by rw [hX, hW])

end Cert.Affine

end
-- ==== Proof.RefLayer.lean ====
/-
  The reference at one entry.

  The reference contracts the last axis of x with the last axis of W and adds the bias, broadcast from its one axis
  first to a five-axis array with four unit axes and then along those four axes. Read at the entry (b, a, d, e, o):
  the contraction is the sum over f of x (b, a, d, e, f) · W (o, f), and the twice-broadcast bias is β (o). That is the
  five-axis form of the affine map, entry by entry; only the indices the operands are read at have to be named.
-/
import proofs.«175733_j7361573945573_1_alg».proof.Proof.Gen.ReferenceIdeal.Read
import proofs.«175733_j7361573945573_1_alg».proof.Proof.Affine

noncomputable section

open scoped BigOperators

namespace Cert.ReferenceIdeal.Layer

open Cert.ReferenceIdeal Cert.ReferenceIdeal.Read Idealize.ShloMosaic Idealize.ShloMosaic.ValueIdx

/-- At result entry (b, a, d, e, o) and contraction coordinate f the input is read at (b, a, d, e, f). -/
theorem input_at (b : Fin 4) (a d e : Fin 32) (o : Fin 512) (f : Fin 256) :
    lidx_main_v0 (ix5 b a d e o) f = ix5 b a d e f :=
  funext fun n => Fin.ext (by
    match n with
    | ⟨0, _⟩ => rfl
    | ⟨1, _⟩ => rfl
    | ⟨2, _⟩ => rfl
    | ⟨3, _⟩ => rfl
    | ⟨4, _⟩ => rfl)

/-- At result entry (b, a, d, e, o) and contraction coordinate f the weight is read at (o, f). -/
theorem weight_at (b : Fin 4) (a d e : Fin 32) (o : Fin 512) (f : Fin 256) :
    ridx_main_v0 (ix5 b a d e o) f = ix2 o f :=
  funext fun n => Fin.ext (by
    match n with
    | ⟨0, _⟩ => rfl
    | ⟨1, _⟩ => rfl)

/-- Through both broadcasts, result entry (b, a, d, e, o) reads the bias at o. -/
theorem bias_at (b : Fin 4) (a d e : Fin 32) (o : Fin 512) :
    idx_main_v1 (idx_main_v2 (ix5 b a d e o)) = ix1 o :=
  funext fun n => Fin.ext (by
    match n with
    | ⟨0, _⟩ => rfl)

/-- The reference's result, as a function of the three arguments, is the five-axis affine map. -/
theorem result_eq (x : FVec Ideal S4x32x32x32x256 .f32) (W : FVec Ideal S512x256 .f32) (β : FVec Ideal S512 .f32) :
    val_main_v3 (F := Ideal) x W β = Cert.Affine.layer x W β := by
  funext i
  obtain ⟨b, a, d, e, o, rfl⟩ : ∃ (b : Fin 4) (a d e : Fin 32) (o : Fin 512), i = ix5 b a d e o :=
    ⟨i 0, i 1, i 2, i 3, i 4, eq_ix5 i⟩
  rw [val_main_v3_apply, val_main_v0_apply, val_main_v2_apply, val_main_v1_apply, bias_at]
  show (∑ f : Fin 256, x (lidx_main_v0 (ix5 b a d e o) f) * W (ridx_main_v0 (ix5 b a d e o) f)) + β (ix1 o)
    = Cert.Affine.layerAt x W β b a d e o
  unfold Cert.Affine.layerAt
  exact congrArg (· + β (ix1 o)) (Finset.sum_congr rfl fun f _ => by rw [input_at, weight_at])

end Cert.ReferenceIdeal.Layer

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Body.lean ====
/-
  The kernel body at one entry.

  On a block of 2048 rows the body multiplies the 2048 × 256 block of X by the whole 256 × 512 matrix Wt, into an
  all-zero accumulator, and adds the one-row bias broadcast down the rows. At entry (p, q) of the block that is

      ∑ f, X (p, f) · Wt (f, q)  +  B (0, q):

  the product is the plain matrix product read at an entry, the zero accumulator adding nothing, and the broadcast
  reads row 0 of B at column q.
-/
import proofs.«175733_j7361573945573_1_alg».proof.Proof.Gen.KernelIdeal.Skeleton
import proofs.«175733_j7361573945573_1_alg».proof.Proof.LibDotPlain
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The body's dimension numbers are those of the plain 2048 × 256 by 256 × 512 product. -/
theorem dims_plain : dot_S2048x256_S256x512_S2048x512_1_0_0_1_n_n = DotDims.plain 2048 256 512 := rfl

/-- The bias row broadcast down 2048 rows reads row 0 at the entry's column. -/
theorem bias_rows (B : FVec Ideal S1x512 .f32) (p : Fin 2048) (q : Fin 512) :
    broadcastTo S2048x512 B Facts₀.broadcasts_S1x512_S2048x512 (ix2 p q) = B (ix2 (⟨0, Nat.one_pos⟩ : Fin 1) q) :=
  broadcastTo_apply B _ (ix2 p q) (ix2 (⟨0, Nat.one_pos⟩ : Fin 1) q) (fun n => match n with
    | ⟨0, _⟩ => by show 0 = if (1 : Nat) = 1 then 0 else _; rw [if_pos rfl]
    | ⟨1, _⟩ => by show q.val = if (512 : Nat) = 1 then 0 else q.val; rw [if_neg (by decide)])

/-- What the body stores, at entry (p, q) of its block: row p of the X block against column q of Wt, plus B (0, q). -/
theorem stored_at (X : Vec Ideal S2048x256 .bf16) (Wt : Vec Ideal S256x512 .bf16) (B : Vec Ideal S1x512 .f32)
    (p : Fin 2048) (q : Fin 512) :
    k0_pay1 (F := Ideal) X Wt B (ix2 p q)
      = (∑ f : Fin 256, X (ix2 p f) * Wt (ix2 f q)) + B (ix2 (⟨0, Nat.one_pos⟩ : Fin 1) q) := by
  unfold k0_pay1
  rw [shapeCast_self, shapeCast_self, shapeCast_self, addf_apply, bias_rows, dims_plain]
  exact congrArg (· + B (ix2 (⟨0, Nat.one_pos⟩ : Fin 1) q)) (Cert.LibDotPlain.matmul_zero_plain 2048 256 512 none X Wt p q)

end Cert.KernelIdeal.Body

end
-- ==== Proof.Blocks.lean ====
/-
  From the blocks to the whole result matrix.

  The grid has 64 points. Point t reads rows t · 2048 … t · 2048 + 2047 of X, the whole of Wt and the whole of B, and
  writes rows t · 2048 … t · 2048 + 2047 of the result. What it writes at (p, q) of its block is row p of its X block
  against column q of Wt, plus B (0, q): that is entry (t · 2048 + p, q) of the matrix form of the affine map of the
  three arrays. The 64 blocks of 2048 rows tile the 131072 rows (row r lies in block r / 2048), so after the last point
  the whole result matrix is the matrix form.
-/
import proofs.«175733_j7361573945573_1_alg».proof.Proof.Gen.KernelIdeal.Frame
import proofs.«175733_j7361573945573_1_alg».proof.Proof.Body
import proofs.«175733_j7361573945573_1_alg».proof.Proof.Affine
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The three operand arrays as the kernel finds them, at their literal types. -/
abbrev Xarr (c : Dev nD) : FVec Ideal S131072x256 .bf16 := V m c main_v1
abbrev Wtarr (c : Dev nD) : FVec Ideal S256x512 .bf16 := V m c main_v3
abbrev Barr (c : Dev nD) : FVec Ideal S1x512 .f32 := V m c main_v4

/-- The three blocks point `t` computes from, at their literal types. -/
abbrev Xblk (c : Dev nD) (t : Fin cfg0.N) : Vec Ideal S2048x256 .bf16 := iblk m c 0 t
abbrev Wtblk (c : Dev nD) (t : Fin cfg0.N) : Vec Ideal S256x512 .bf16 := iblk m c 1 t
abbrev Bblk (c : Dev nD) (t : Fin cfg0.N) : Vec Ideal S1x512 .f32 := iblk m c 2 t

theorem origin : (![0, 0] : Fin 2 → Nat) = fun _ => 0 := funext fun a => by fin_cases a <;> rfl

/-- Where each window's block sits at point `t`: the X block and the result block are the `t`-th band of rows; Wt and B
    are read whole at every point. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := lt_of_lt_of_eq t.isLt N_0

/-- Row `p` of point `t`'s X block is row `t · 2048 + p` of X. -/
theorem Xblk_at (c : Dev nD) (t : Fin cfg0.N) (p : Fin 2048) (f : Fin 256) (r : Fin 131072)
    (hr : r.val = t.val * 2048 + p.val) : Xblk m c t (ix2 p f) = Xarr m c (ix2 r f) := by
  show V m c main_v1 (((cfg0.win 0).blk t).view.emb (ix2 p f)) = V m c main_v1 (ix2 r f)
  refine congrArg _ (funext fun a => Fin.ext ?_)
  obtain ⟨e0, e1, -⟩ := block_index t
  match a with
  | ⟨0, _⟩ => show win0_0.index t (0 : Fin 2) * 2048 + 1 * p.val = r.val; omega
  | ⟨1, _⟩ => show win0_0.index t (1 : Fin 2) * 256 + 1 * f.val = f.val; omega

/-- Every point's Wt block is all of Wt. -/
theorem Wtblk_at (c : Dev nD) (t : Fin cfg0.N) (f : Fin 256) (q : Fin 512) : Wtblk m c t (ix2 f q) = Wtarr m c (ix2 f q) := by
  show V m c main_v3 (((cfg0.win 1).blk t).view.emb (ix2 f q)) = V m c main_v3 (ix2 f q)
  refine congrArg _ (funext fun a => Fin.ext ?_)
  obtain ⟨-, -, e2, e3, -⟩ := block_index t
  match a with
  | ⟨0, _⟩ => show win0_1.index t (0 : Fin 2) * 256 + 1 * f.val = f.val; omega
  | ⟨1, _⟩ => show win0_1.index t (1 : Fin 2) * 512 + 1 * q.val = q.val; omega

/-- Every point's B block is all of B. -/
theorem Bblk_at (c : Dev nD) (t : Fin cfg0.N) (z : Fin 1) (q : Fin 512) : Bblk m c t (ix2 z q) = Barr m c (ix2 z q) := by
  show V m c main_v4 (((cfg0.win 2).blk t).view.emb (ix2 z q)) = V m c main_v4 (ix2 z q)
  refine congrArg _ (funext fun a => Fin.ext ?_)
  obtain ⟨-, -, -, -, e4, e5, -⟩ := block_index t
  match a with
  | ⟨0, _⟩ => show win0_2.index t (0 : Fin 2) * 1 + 1 * z.val = z.val; omega
  | ⟨1, _⟩ => show win0_2.index t (1 : Fin 2) * 512 + 1 * q.val = q.val; omega

/-- What point `t` writes back is band `t` of the matrix form of the affine map of the three arrays. -/
theorem flushed_eq (c : Dev nD) (t : Fin cfg0.N) :
    (dats m 0 c).flushed 3 t
      = ((cfg0.win 3).blk t).view.read (Elt Ideal) (Cert.Affine.rows (Xarr m c) (Wtarr m c) (Barr m c)) := by
  show (cfg0.win 3).cut (grid0.coords t) ((dats m 0 c).after 3 t) = _
  rw [after0_3]
  unfold out0_3
  rw [View.canon_unit_zero origin]
  simp only [View.ld_unit_zero (S := S2048x256) origin, View.ld_unit_zero (S := S256x512) origin,
    View.ld_unit_zero (S := S1x512) origin]
  funext j
  obtain ⟨p, q, rfl⟩ : ∃ (p : Fin 2048) (q : Fin 512), j = ix2 p q := ⟨j 0, j 1, eq_ix2 j⟩
  have ht := point_lt t
  have hrow : ((cfg0.win 3).blk t).view.emb (ix2 p q)
      = ix2 (⟨t.val * 2048 + p.val, by omega⟩ : Fin 131072) q := by
    obtain ⟨-, -, -, -, -, -, e6, e7⟩ := block_index t
    funext a; apply Fin.ext
    match a with
    | ⟨0, _⟩ => show win0_3.index t (0 : Fin 2) * 2048 + 1 * p.val = t.val * 2048 + p.val; omega
    | ⟨1, _⟩ => show win0_3.index t (1 : Fin 2) * 512 + 1 * q.val = q.val; omega
  show k0_pay1 (F := Ideal) (Xblk m c t) (Wtblk m c t) (Bblk m c t) (ix2 p q)
    = Cert.Affine.rows (Xarr m c) (Wtarr m c) (Barr m c) (((cfg0.win 3).blk t).view.emb (ix2 p q))
  rw [hrow]
  refine (Cert.KernelIdeal.Body.stored_at (Xblk m c t) (Wtblk m c t) (Bblk m c t) p q).trans ?_
  show _ = Cert.Affine.rowsAt (Xarr m c) (Wtarr m c) (Barr m c) (⟨t.val * 2048 + p.val, by omega⟩ : Fin 131072) q
  unfold Cert.Affine.rowsAt
  rw [Bblk_at]
  exact congrArg (· + Barr m c (ix2 (⟨0, Nat.one_pos⟩ : Fin 1) q))
    (Finset.sum_congr rfl fun f _ => by rw [Xblk_at m c t p f ⟨t.val * 2048 + p.val, by omega⟩ rfl, Wtblk_at])

/-- An entry of the result matrix lies in point `t`'s block iff each coordinate lies in the block's range on its axis. -/
theorem mem_block (t : Fin cfg0.N) (i : S131072x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v5).slice (win0_3.rect t)).set ↔ _
  rw [View.set_slice_whole, Rect.mem_set_unit]
  exact Iff.rfl

/-- Every entry of the result matrix is written by some point: row `r` by point `r / 2048`. -/
theorem covered (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  have hN : (i 0).val / 2048 < cfg0.N := lt_of_lt_of_eq (show (i 0).val / 2048 < 64 by omega) N_0.symm
  refine ⟨⟨(i 0).val / 2048, hN⟩, flush0_3 _, ?_⟩
  rw [mem_block]
  obtain ⟨-, -, -, -, -, -, e6, e7⟩ := block_index ⟨(i 0).val / 2048, hN⟩
  have e6' : win0_3.index ⟨(i 0).val / 2048, hN⟩ (0 : Fin 2) = (i 0).val / 2048 := e6
  intro a
  match a with
  | ⟨0, _⟩ =>
    show win0_3.index ⟨(i 0).val / 2048, hN⟩ (0 : Fin 2) * 2048 ≤ (i 0).val
      ∧ (i 0).val < win0_3.index ⟨(i 0).val / 2048, hN⟩ (0 : Fin 2) * 2048 + 2048
    omega
  | ⟨1, _⟩ =>
    show win0_3.index ⟨(i 0).val / 2048, hN⟩ (1 : Fin 2) * 512 ≤ (i 1).val
      ∧ (i 1).val < win0_3.index ⟨(i 0).val / 2048, hN⟩ (1 : Fin 2) * 512 + 512
    omega

/-- After the last point the result matrix is the matrix form of the affine map of the three arrays. -/
theorem result_matrix (c : Dev nD) :
    (dats m 0 c).arrAt 3 cfg0.N = Cert.Affine.rows (Xarr m c) (Wtarr m c) (Barr m c) :=
  (dats m 0 c).arrAt_eq_of_cover 3 _ (fun t _ => flushed_eq m c t) covered

end Cert.KernelIdeal.Blocks

end
-- ==== Proof.Entry.lean ====
/-
  What the kernel finds in its three operand arrays.

  Before the kernel runs, the program lays the arguments out for it. The five-axis input x is read as a matrix X of
  131072 rows and 256 columns, row-major: row r = ((b · 32 + a) · 32 + d) · 32 + e holds the fibre of x over (b, a, d, e).
  The weight W is transposed: Wt (f, o) = W (o, f). The bias β becomes the one row of B: B (0, o) = β (o). The changes of
  float format on the way (to a 16-bit format for X and Wt) are the identity on the extended reals.
-/
import proofs.«175733_j7361573945573_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The matrix the kernel reads its rows from: the input reshaped to 131072 × 256 (and narrowed, which changes nothing). -/
theorem X_eq (c : Dev nD) : (V m c main_v1 : S131072x256.Idx → EReal)
    = (truncf (F := Ideal) .bf16 (shapeCast S131072x256 (m ((c : Thread nD τ).loc main_arg0))
        Facts₀.shapeCasts_S4x32x32x32x256_S131072x256) bitsLt_bf16_f32 : S131072x256.Idx → EReal) := by
  show StableHlo.after hostOps0 (fun b => m (c, b)) (Proc.devRef .tc main_v1) = _
  after_results
  rfl

/-- The matrix of columns: the weight transposed (and narrowed, which changes nothing). -/
theorem Wt_eq (c : Dev nD) : (V m c main_v3 : S256x512.Idx → EReal)
    = (truncf (F := Ideal) .bf16 (transpose S256x512 [1, 0] (m ((c : Thread nD τ).loc main_arg1))
        Facts₀.transposes_S512x256_S256x512_1_0) bitsLt_bf16_f32 : S256x512.Idx → EReal) := by
  show StableHlo.after hostOps0 (fun b => m (c, b)) (Proc.devRef .tc main_v3) = _
  after_results

/-- The one-row bias: the bias reshaped to 1 × 512. -/
theorem B_eq (c : Dev nD) : (V m c main_v4 : S1x512.Idx → EReal)
    = shapeCast S1x512 (m ((c : Thread nD τ).loc main_arg2)) Facts₀.shapeCasts_S512_S1x512 := by
  show StableHlo.after hostOps0 (fun b => m (c, b)) (Proc.devRef .tc main_v4) = _
  after_results
  rfl

/-- Row r = ((b · 32 + a) · 32 + d) · 32 + e of X, at column f, is x (b, a, d, e, f): the two entries have the same
    row-major position, r · 256 + f. -/
theorem X_at (c : Dev nD) (b : Fin 4) (a d e : Fin 32) (f : Fin 256) (r : Fin 131072)
    (hr : r.val = ((b.val * 32 + a.val) * 32 + d.val) * 32 + e.val) :
    (V m c main_v1 : S131072x256.Idx → EReal) (ix2 r f) = m ((c : Thread nD τ).loc main_arg0) (ix5 b a d e f) := by
  rw [X_eq]
  show shapeCast S131072x256 (m ((c : Thread nD τ).loc main_arg0)) Facts₀.shapeCasts_S4x32x32x32x256_S131072x256 (ix2 r f) = _
  refine shapeCast_apply _ _ (ix2 r f) (ix5 b a d e f) ?_
  rw [Shape.rowMajor_val_five, Shape.rowMajor_val_two]
  show (((b.val * 32 + a.val) * 32 + d.val) * 32 + e.val) * 256 + f.val = r.val * 256 + f.val
  omega

/-- Entry (f, o) of Wt is W (o, f). -/
theorem Wt_at (c : Dev nD) (f : Fin 256) (o : Fin 512) :
    (V m c main_v3 : S256x512.Idx → EReal) (ix2 f o) = m ((c : Thread nD τ).loc main_arg1) (ix2 o f) := by
  rw [Wt_eq]
  show transpose S256x512 [1, 0] (m ((c : Thread nD τ).loc main_arg1)) Facts₀.transposes_S512x256_S256x512_1_0 (ix2 f o) = _
  exact transpose_apply _ _ _ (ix2 f o) (ix2 o f) (fun n => match n with
    | ⟨0, _⟩ => rfl
    | ⟨1, _⟩ => rfl)

/-- Entry (0, o) of B is β (o). -/
theorem B_at (c : Dev nD) (o : Fin 512) :
    (V m c main_v4 : S1x512.Idx → EReal) (ix2 (⟨0, Nat.one_pos⟩ : Fin 1) o) = m ((c : Thread nD τ).loc main_arg2) (ix1 o) := by
  rw [B_eq]
  refine shapeCast_apply _ _ (ix2 (⟨0, Nat.one_pos⟩ : Fin 1) o) (ix1 o) ?_
  rw [Shape.rowMajor_val_one, Shape.rowMajor_val_two]
  show o.val = 0 * 512 + o.val
  omega

end Cert.KernelIdeal.Entry

end
-- ==== Proof.Result.lean ====
/-
  The kernel's result as a function of the three arguments.

  After the kernel, the program reads the 131072 × 512 result matrix as a five-axis array, row-major: entry
  (b, a, d, e, o) is entry (r, o) of the matrix with r = ((b · 32 + a) · 32 + d) · 32 + e. The matrix is the matrix form of
  the affine map of X, Wt and B; row r of X is the fibre of x over (b, a, d, e), Wt is W transposed and B's row is β. So
  entry (b, a, d, e, o) of the final result is ∑ f, x (b, a, d, e, f) · W (o, f) + β (o): the five-axis form.
-/
import proofs.«175733_j7361573945573_1_alg».proof.Proof.Gen.KernelIdeal.Frame
import proofs.«175733_j7361573945573_1_alg».proof.Proof.Blocks
import proofs.«175733_j7361573945573_1_alg».proof.Proof.Entry
import Idealize.ShloMosaic.Lib.Pipeline.Value
import Idealize.ShloMosaic.Lib.ValueIdx
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The program's result: the result matrix after the last grid point, read as a five-axis array. -/
theorem reshaped (c : Dev nD) :
    (Pipeline.afterTail₀ cfgs (dats m) 0 (V0 m) [hostOps1] c main_v6 : S4x32x32x32x512.Idx → EReal)
      = shapeCast S4x32x32x32x512 ((dats m 0 c).arrAt 3 cfg0.N) Facts₀.shapeCasts_S131072x512_S4x32x32x32x512 := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.tc.devRef main_v5)
      = (dats m 0 c).arrAt 3 cfg0.N from Pipeline.withArrays_arr spec0 launch0.win.arr_inj c _ _ 3]
  rfl

/-- The program's result is the five-axis affine map of its three arguments. -/
theorem value (c : Dev nD) :
    (Pipeline.afterTail₀ cfgs (dats m) 0 (V0 m) [hostOps1] c main_v6 : S4x32x32x32x512.Idx → EReal)
      = Cert.Affine.layer (m ((c : Thread nD τ).loc main_arg0)) (m ((c : Thread nD τ).loc main_arg1))
          (m ((c : Thread nD τ).loc main_arg2)) := by
  rw [reshaped, Cert.KernelIdeal.Blocks.result_matrix]
  funext i
  obtain ⟨b, a, d, e, o, rfl⟩ : ∃ (b : Fin 4) (a d e : Fin 32) (o : Fin 512), i = ix5 b a d e o :=
    ⟨i 0, i 1, i 2, i 3, i 4, eq_ix5 i⟩
  have hr : ((b.val * 32 + a.val) * 32 + d.val) * 32 + e.val < 131072 := by
    have := b.isLt; have := a.isLt; have := d.isLt; have := e.isLt; omega
  refine (shapeCast_apply _ _ (ix5 b a d e o)
    (ix2 (⟨((b.val * 32 + a.val) * 32 + d.val) * 32 + e.val, hr⟩ : Fin 131072) o) ?_).trans ?_
  · rw [Shape.rowMajor_val_two, Shape.rowMajor_val_five]
    rfl
  · show Cert.Affine.rowsAt _ _ _ (⟨((b.val * 32 + a.val) * 32 + d.val) * 32 + e.val, hr⟩ : Fin 131072) o
      = Cert.Affine.layerAt _ _ _ b a d e o
    exact Cert.Affine.rowsAt_eq_layerAt _ _ _ _ _ _ b a d e o _
      (fun f => Cert.KernelIdeal.Entry.X_at m c b a d e f _ rfl)
      (fun f => Cert.KernelIdeal.Entry.Wt_at m c f o)
      (Cert.KernelIdeal.Entry.B_at m c o)

/-- Every weakly fair execution of the program terminates with its result at the five-axis affine map of the
    arguments, and the arguments as they were. -/
theorem run : θ_run defs (onTc (τ := τ) (main (F := Ideal))) ⟨m, fun _ => 0, ρ⟩ fun r => ∀ c : Dev nD,
      r.2.mem ((c.tc : Thread nD τ).loc main_v6)
        = Cert.Affine.layer (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  A linear layer computed as one blocked matrix product, against the einsum that defines it.

  Both programs compute, for an input x with axes (b, a, d, e, f), a weight W with axes (o, f) and a bias β with axis (o),

      y (b, a, d, e, o) = ∑ f, x (b, a, d, e, f) · W (o, f)  +  β (o).

  The reference does it in one contraction over f followed by the broadcast bias. The kernel program first reads x as a
  matrix X of 131072 rows (row-major in (b, a, d, e)), transposes W to Wt and makes β the one row of B; its kernel then
  walks the rows in 64 bands of 2048, each band of the result being the band of X times Wt plus B's row; and the result
  matrix is read back as a five-axis array. Over the extended reals the changes of float format are the identity and the
  all-zero accumulator adds nothing, so entry by entry the two results are the same sum of the same products plus the
  same bias entry. No law of the extended reals beyond renaming the index of a sum is used, and so the finiteness of the
  inputs is never needed.

  The three frames are the generated frame runs (for the reference: its run with the result dropped); the idealized
  kernel differs from the kernel by no rewrite, so there is nothing to preserve.
-/
import proofs.«175733_j7361573945573_1_alg».proof.Defs
import proofs.«175733_j7361573945573_1_alg».proof.Proof.Gen.Kernel
import proofs.«175733_j7361573945573_1_alg».proof.Proof.Gen.Kernel.Skeleton
import proofs.«175733_j7361573945573_1_alg».proof.Proof.Gen.Kernel.Launch
import proofs.«175733_j7361573945573_1_alg».proof.Proof.Gen.Kernel.Points
import proofs.«175733_j7361573945573_1_alg».proof.Proof.Gen.Kernel.Frame
import proofs.«175733_j7361573945573_1_alg».proof.Proof.Gen.KernelIdeal
import proofs.«175733_j7361573945573_1_alg».proof.Proof.Gen.KernelIdeal.Skeleton
import proofs.«175733_j7361573945573_1_alg».proof.Proof.Gen.KernelIdeal.Launch
import proofs.«175733_j7361573945573_1_alg».proof.Proof.Gen.KernelIdeal.Points
import proofs.«175733_j7361573945573_1_alg».proof.Proof.Gen.KernelIdeal.Frame
import proofs.«175733_j7361573945573_1_alg».proof.Proof.Gen.ReferenceIdeal
import proofs.«175733_j7361573945573_1_alg».proof.Proof.Gen.Pre_finite_inputs
import proofs.«175733_j7361573945573_1_alg».proof.Proof.Gen.ReferenceIdeal.Run
import proofs.«175733_j7361573945573_1_alg».proof.Proof.Gen.ReferenceIdeal.Read
import proofs.«175733_j7361573945573_1_alg».proof.Proof.RefLayer
import proofs.«175733_j7361573945573_1_alg».proof.Proof.Result
import Idealize.ShloMosaic.Adequacy
import Idealize.ShloMosaic.Init

noncomputable section

namespace Cert.Proof

open Idealize.ShloMosaic Idealize.SL.Sem

/-- The kernel program runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on x, W and β, both idealized programs end with the five-axis affine map of the three
    arguments as their result. -/
theorem algebraic : Cert.algebraic_KernelIdeal_ReferenceIdeal := by
  intro m ρ m' ρ' _ hagree
  refine ⟨fun c => Cert.Affine.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v3_eq _ _ _).trans ((Cert.ReferenceIdeal.Layer.result_eq _ _ _).trans ?_)
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
